-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4x4096x16 : Shape := ⟨3, ![4, 4096, 16]⟩
abbrev S4x16x4096 : Shape := ⟨3, ![4, 16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x4096x16 : S_.BroadcastsInDim S4x4096x16 (![] : Fin 0 → Fin S4x4096x16.rank)
  reducesTo_S4x4096x16_S_d0_1_2 : S4x4096x16.ReducesTo [0, 1, 2] S_
  bcast_S_S4x16x4096 : S_.BroadcastsInDim S4x16x4096 (![] : Fin 0 → Fin S4x16x4096.rank)
  reducesTo_S4x16x4096_S_d0_1_2 : S4x16x4096.ReducesTo [0, 1, 2] S_

variable [Facts]

def fn_part1 {F : FTy → Type} [FloatOps F] (main_arg4 : FVec F S4x16x4096 .f32) (main_v13 : IVec S_ 1) (main_v16 : IVec S4x4096x16 1) : IVec S_ 1 :=
  let main_c_5 : IVec S_ 1 := constantI S_ 1 1#1
  let main_v17 : IVec S_ 1 := (fun x v => Host.reduce IntOp.andi x v reducesTo_S4x4096x16_S_d0_1_2 h_S_) main_v16 main_c_5
  let main_v18 : IVec S_ 1 := andi main_v13 main_v17
  let main_v19 : FVec F S4x16x4096 .f32 := Host.absf main_arg4
  let main_cst_6 : FVec F S_ .f32 := constant S_ .f32 0x7F800000#32
  let main_v20 : FVec F S4x16x4096 .f32 := broadcastInDim S4x16x4096 ![] bcast_S_S4x16x4096 main_cst_6
  let main_v21 : IVec S4x16x4096 1 := cmpf .olt main_v19 main_v20
  let main_c_7 : IVec S_ 1 := constantI S_ 1 1#1
  let main_v22 : IVec S_ 1 := (fun x v => Host.reduce IntOp.andi x v reducesTo_S4x16x4096_S_d0_1_2 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4x4096x16 .f32) (main_arg4 : FVec F S4x16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x4096x16 .f32 := Host.absf main_arg3
  let main_cst_4 : FVec F S_ .f32 := constant S_ .f32 0x7F800000#32
  let main_v15 : FVec F S4x4096x16 .f32 := broadcastInDim S4x4096x16 ![] bcast_S_S4x4096x16 main_cst_4
  let main_v16 : IVec S4x4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4x4096x16 : Shape := ⟨3, ![4, 4096, 16]⟩
abbrev S4x16x4096 : Shape := ⟨3, ![4, 16, 4096]⟩
abbrev S1x512x1024 : Shape := ⟨3, ![1, 512, 1024]⟩
abbrev S1024x1024 : Shape := ⟨2, ![1024, 1024]⟩
abbrev S1024 : Shape := ⟨1, ![1024]⟩
abbrev S1x1024x16 : Shape := ⟨3, ![1, 1024, 16]⟩
abbrev S1x16x1024 : Shape := ⟨3, ![1, 16, 1024]⟩
abbrev S512x1024 : Shape := ⟨2, ![512, 1024]⟩
abbrev S512x16 : Shape := ⟨2, ![512, 16]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096x16, .f32⟩
  | .hbm, ⟨4, _⟩ => ⟨S4x16x4096, .f32⟩
  | .hbm, ⟨5, _⟩ => ⟨S4x2048x4096, .bf16⟩
  | .hbm, ⟨6, _⟩ => ⟨S4096x4096, .bf16⟩
  | .hbm, ⟨7, _⟩ => ⟨S4x4096x16, .bf16⟩
  | .hbm, ⟨8, _⟩ => ⟨S4x16x4096, .bf16⟩
  | .hbm, ⟨9, _⟩ => ⟨S4x2048x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1x1024x16, .bf16⟩
  | .local _ .vmem, ⟨7, _⟩ => ⟨S1x1024x16, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | .local _ .vmem, ⟨13, _⟩ => ⟨S512x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 4, 4, 4], ![false, false, false, false]⟩

def k0_cond2 (i : grid0.Coords) : BitVec 1 :=
  let arg3 : BitVec 32 := BitVec.ofNat 32 (i 3).val
  let c3_i32 : BitVec 32 := 3#32
  let v23 : BitVec 1 := Scalar.cmpi .eq arg3 c3_i32
  let v24 : BitVec 32 := Scalar.extui v23
  let c0_i32_20 : BitVec 32 := 0#32
  let v25 : BitVec 1 := Scalar.cmpi .ne v24 c0_i32_20
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, false]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S1024x16_S512x16_1_0_0_1_n_n_wf : DotDims.WF S512x1024 S1024x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x4096.size a
  hwx0_0 : ∀ i : grid0.Coords, EltTy.bits .bf16 = 32 ∨ (Rect.block (s := S4x2048x4096) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S4x4096x16.size a
  hwx0_3 : ∀ i : grid0.Coords, EltTy.bits .bf16 = 32 ∨ (Rect.block (s := S4x4096x16) S1x1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1024.size a ≤ S4x16x4096.size a
  hwx0_4 : ∀ i : grid0.Coords, EltTy.bits .bf16 = 32 ∨ (Rect.block (s := S4x16x4096) S1x16x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x4096.size a
  hwx0_5 : ∀ i : grid0.Coords, EltTy.bits .f32 = 32 ∨ (Rect.block (s := S4x2048x4096) S1x512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4x4096x16 : Shape := ⟨3, ![4, 4096, 16]⟩
abbrev S4x16x4096 : Shape := ⟨3, ![4, 16, 4096]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096x16, .f32⟩
  | .hbm, ⟨4, _⟩ => ⟨S4x16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4x4096x16_S4x2048x16_2_1_1_2_0_0_wf : DotDims.WF S4x2048x4096 S4x4096x16 S4x2048x16 [2] [1] [1] [2] [0] [0]
  dot_S4x2048x16_S4x16x4096_S4x2048x4096_2_1_1_2_0_0_wf : DotDims.WF S4x2048x16 S4x16x4096 S4x2048x4096 [2] [1] [1] [2] [0] [0]

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4x4096x16_S4x2048x16_2_1_1_2_0_0 : DotDims S4x2048x4096 S4x4096x16 S4x2048x16 where
  lhsContracting := [2]
  rhsContracting := [1]
  lhsNonContracting := [1]
  rhsNonContracting := [2]
  lhsBatch := [0]
  rhsBatch := [0]
  wf := dot_S4x2048x4096_S4x4096x16_S4x2048x16_2_1_1_2_0_0_wf
def dot_S4x2048x16_S4x16x4096_S4x2048x4096_2_1_1_2_0_0 : DotDims S4x2048x16 S4x16x4096 S4x2048x4096 where
  lhsContracting := [2]
  rhsContracting := [1]
  lhsNonContracting := [1]
  rhsNonContracting := [2]
  lhsBatch := [0]
  rhsBatch := [0]
  wf := dot_S4x2048x16_S4x16x4096_S4x2048x4096_2_1_1_2_0_0_wf

class Facts : Prop extends Facts₀ where

variable [Facts]
-- ==== Proof.Pieces.lean ====
/-
  What one grid step leaves behind, as plain terms of what it loaded.

  A grid step is in one of three cases by its position `ki` on the reduction axis. At `ki = 0` it first stores zeros
  into both accumulators and then adds this step's two partial products into them; at `ki = 1, 2` it only adds; at
  `ki = 3` it adds and then writes the output block from the two accumulators it has just updated. The generated frame
  states what each case leaves in the two accumulators and in the output's staging buffer as "the stores' pieces read
  back". Here each of those is opened once: every store covers its whole buffer and every load reads a whole buffer,
  so what is left is simply the last store's value, in which a load that follows a store of the same step reads that
  store's value. The results are the kernel body's own arithmetic (`k0_pay4`: base accumulator plus the step's
  `x·wᵀ` block product; `k0_pay5`: low-rank accumulator plus the step's `x·a` block product; `k0_pay6`: the output
  block from the two accumulators, the bias block and the `bm` block), generic in the number instance.
-/
import proofs.«113641_j64183991271648_1_alg».proof.Proof.Gen.KernelIdeal.Frame
import Idealize.ShloMosaic.Lib.Pipeline.Value
import Idealize.ShloMosaic.Lib.Tactic

noncomputable section

namespace Cert.Lora.Kernel

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First step of a run (`ki = 0`): the base accumulator is reset to zeros and this step's product added to that. -/
theorem base_first (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : cond0_0 i) (hc1 : ¬cond0_1 i) (x0 : Vec F S1x512x1024 .bf16) (x1 : Vec F S1024x1024 .bf16) (x2 : Vec F S1024 .f32) (x3 : Vec F S1x1024x16 .bf16) (x4 : Vec F S1x16x1024 .bf16) :
    sout0_A_0 c i arg4 harg4 arg5 harg5 arg6 harg6 arg7 harg7 arg8 harg8 arg9 harg9 arg10 harg10 arg11 harg11 hc0 hc1 x0 x1 x2 x3 x4 = k0_pay4 x0 x1 k0_pay1 := by
  unfold sout0_A_0
  rw [View.read_writes_eq_canon _ _ _ (scover0_A_0 c i arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S512x1024) hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- First step of a run: the low-rank accumulator is reset to zeros and this step's product added to that. -/
theorem low_first (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : cond0_0 i) (hc1 : ¬cond0_1 i) (x0 : Vec F S1x512x1024 .bf16) (x1 : Vec F S1024x1024 .bf16) (x2 : Vec F S1024 .f32) (x3 : Vec F S1x1024x16 .bf16) (x4 : Vec F S1x16x1024 .bf16) :
    sout0_A_1 c i arg4 harg4 arg5 harg5 arg6 harg6 arg7 harg7 arg8 harg8 arg9 harg9 arg10 harg10 arg11 harg11 hc0 hc1 x0 x1 x2 x3 x4 = k0_pay5 x0 x3 k0_pay2 := by
  unfold sout0_A_1
  rw [View.read_writes_eq_canon _ _ _ (scover0_A_1 c i arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S512x16) hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- A middle step (`ki = 1, 2`): this step's product added to what the step before left in the base accumulator. -/
theorem base_mid (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : ¬cond0_0 i) (hc1 : ¬cond0_1 i) (x0 : Vec F S1x512x1024 .bf16) (x1 : Vec F S1024x1024 .bf16) (x2 : Vec F S1024 .f32) (x3 : Vec F S1x1024x16 .bf16) (x4 : Vec F S1x16x1024 .bf16) (xs0 : Vec F S512x1024 .f32) (xs1 : Vec F S512x16 .f32) :
    sout0_B_0 c i arg4 harg4 arg5 harg5 arg6 harg6 arg7 harg7 arg8 harg8 arg9 harg9 arg10 harg10 arg11 harg11 hc0 hc1 x0 x1 x2 x3 x4 xs0 xs1 = k0_pay4 x0 x1 xs0 := by
  unfold sout0_B_0
  rw [View.read_writes_eq_canon _ _ _ (scover0_B_0 c i arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- A middle step: this step's product added to what the step before left in the low-rank accumulator. -/
theorem low_mid (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : ¬cond0_0 i) (hc1 : ¬cond0_1 i) (x0 : Vec F S1x512x1024 .bf16) (x1 : Vec F S1024x1024 .bf16) (x2 : Vec F S1024 .f32) (x3 : Vec F S1x1024x16 .bf16) (x4 : Vec F S1x16x1024 .bf16) (xs0 : Vec F S512x1024 .f32) (xs1 : Vec F S512x16 .f32) :
    sout0_B_1 c i arg4 harg4 arg5 harg5 arg6 harg6 arg7 harg7 arg8 harg8 arg9 harg9 arg10 harg10 arg11 harg11 hc0 hc1 x0 x1 x2 x3 x4 xs0 xs1 = k0_pay5 x0 x3 xs1 := by
  unfold sout0_B_1
  rw [View.read_writes_eq_canon _ _ _ (scover0_B_1 c i arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- The last step (`ki = 3`) updates the base accumulator like a middle step. -/
theorem base_last (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : ¬cond0_0 i) (hc1 : cond0_1 i) (x0 : Vec F S1x512x1024 .bf16) (x1 : Vec F S1024x1024 .bf16) (x2 : Vec F S1024 .f32) (x3 : Vec F S1x1024x16 .bf16) (x4 : Vec F S1x16x1024 .bf16) (xs0 : Vec F S512x1024 .f32) (xs1 : Vec F S512x16 .f32) :
    sout0_C_0 c i arg4 harg4 arg5 harg5 arg6 harg6 arg7 harg7 arg8 harg8 arg9 harg9 arg10 harg10 arg11 harg11 hc0 hc1 x0 x1 x2 x3 x4 xs0 xs1 = k0_pay4 x0 x1 xs0 := by
  unfold sout0_C_0
  rw [View.read_writes_eq_canon _ _ _ (scover0_C_0 c i arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- The last step updates the low-rank accumulator like a middle step. -/
theorem low_last (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : ¬cond0_0 i) (hc1 : cond0_1 i) (x0 : Vec F S1x512x1024 .bf16) (x1 : Vec F S1024x1024 .bf16) (x2 : Vec F S1024 .f32) (x3 : Vec F S1x1024x16 .bf16) (x4 : Vec F S1x16x1024 .bf16) (xs0 : Vec F S512x1024 .f32) (xs1 : Vec F S512x16 .f32) :
    sout0_C_1 c i arg4 harg4 arg5 harg5 arg6 harg6 arg7 harg7 arg8 harg8 arg9 harg9 arg10 harg10 arg11 harg11 hc0 hc1 x0 x1 x2 x3 x4 xs0 xs1 = k0_pay5 x0 x3 xs1 := by
  unfold sout0_C_1
  rw [View.read_writes_eq_canon _ _ _ (scover0_C_1 c i arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz2]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

/-- The last step's output block: computed from the two accumulators AS THIS STEP HAS JUST UPDATED THEM, the bias block and the `bm` block. -/
theorem out_last (c : Dev nD) (i : grid0.Coords) (arg4 : Memref sig .tc .vmem S1x512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x16x1024 .bf16) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S512x16 .f32) (harg11 : arg11.IsWhole) (hc0 : ¬cond0_0 i) (hc1 : cond0_1 i) (x0 : Vec F S1x512x1024 .bf16) (x1 : Vec F S1024x1024 .bf16) (x2 : Vec F S1024 .f32) (x3 : Vec F S1x1024x16 .bf16) (x4 : Vec F S1x16x1024 .bf16) (xs0 : Vec F S512x1024 .f32) (xs1 : Vec F S512x16 .f32) :
    out0_C_5 c i arg4 harg4 arg5 harg5 arg6 harg6 arg7 harg7 arg8 harg8 arg9 harg9 arg10 harg10 arg11 harg11 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz3]
  simp only [View.readAt_eq_ld, harg4.read_unread, harg5.read_unread, harg6.read_unread, harg7.read_unread, harg8.read_unread,
    harg10.read_unread, harg11.read_unread, View.readCov_unit_zero (S := S512x1024) _ hz2, View.readCov_unit_zero (S := S512x16) _ hz2,
    View.ld_unit_zero (S := S1x512x1024) hz3, View.ld_unit_zero (S := S1024x1024) hz2, View.ld_unit_zero (S := S1024) hz1,
    View.ld_unit_zero (S := S1x1024x16) hz3, View.ld_unit_zero (S := S1x16x1024) hz3, View.ld_unit_zero (S := S512x1024) hz2,
    View.ld_unit_zero (S := S512x16) hz2]

end Cert.Lora.Kernel

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibDotT.lean ====
/-
  A matrix product against a transposed right operand, read at an entry, at the ideal values.

  `x · wᵀ` with the weight stored feature-major: an `M × K` array against an `N × K` array, contracting the LAST axis of
  both, no batch axis. At the ideal values the kernel's product into a zero accumulator and the host's product are, at
  entry `(p, q)`, the sum over `k` of `lhs (p, k) · rhs (q, k)`: no rounding and no order of accumulation is left in it.
  A printed dimension record of this kind is `DotDims.transposedRhs M K N` up to its well-formedness proof.
-/
import Idealize.ShloMosaic.PureOps.Ideal.Laws
import Idealize.ShloMosaic.Lib.ValueIdx

noncomputable section

namespace Cert.DotT

open Idealize.ShloMosaic Idealize.ShloMosaic.ValueIdx

variable {M K N : ℕ}

theorem lhs0 (i : (⟨2, ![M, N]⟩ : Shape).Idx) (κ : (DotDims.transposedRhs M K N).contr.Idx) :
    ((DotDims.transposedRhs M K N).lhsIdx i κ 0).val = (i 0).val := rfl
theorem lhs1 (i : (⟨2, ![M, N]⟩ : Shape).Idx) (κ : (DotDims.transposedRhs M K N).contr.Idx) :
    ((DotDims.transposedRhs M K N).lhsIdx i κ 1).val = (κ ⟨0, Nat.one_pos⟩).val := rfl
theorem rhs0 (i : (⟨2, ![M, N]⟩ : Shape).Idx) (κ : (DotDims.transposedRhs M K N).contr.Idx) :
    ((DotDims.transposedRhs M K N).rhsIdx i κ 0).val = (i 1).val := rfl
theorem rhs1 (i : (⟨2, ![M, N]⟩ : Shape).Idx) (κ : (DotDims.transposedRhs M K N).contr.Idx) :
    ((DotDims.transposedRhs M K N).rhsIdx i κ 1).val = (κ ⟨0, Nat.one_pos⟩).val := rfl

/-- The sum over the contraction index of a product against a transposed right operand, re-indexed by `k : Fin K`. -/
theorem sum_eq {φ₁ φ₂ : FTy} (lhs : FVec Ideal ⟨2, ![M, K]⟩ φ₁) (rhs : FVec Ideal ⟨2, ![N, K]⟩ φ₂) (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- A kernel's product against a transposed right operand into the zero accumulator, read at entry `(p, q)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq lhs rhs p q

/-- The host's product against a transposed right operand, read at entry `(p, q)`. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq lhs rhs p q

end Cert.DotT

end
-- ==== Proof.Spec.lean ====
/-
  The function both programs compute, and the one law that joins their two arrangements of it.

  For a token `(b, s)` and an output feature `o`:

      G b s o  =  (Σ_k x[b,s,k] · w[o,k]  +  bias[o])  +  (Σ_r (Σ_k x[b,s,k] · a[b,k,r]) · bm[b,r,o]) · 2

  a dense layer plus a rank-16 correction per batch entry, scaled by 2. The reference computes it with whole
  contractions over the 4096 input features. The kernel cuts that axis into four runs of 1024 and adds one run's
  partial products at a time into an accumulator that starts at zero; the law below says a sum over four runs of
  1024 consecutive indices is the sum over all 4096 — only commutativity and associativity of addition, so it
  holds on the extended reals with no finiteness assumption.

  To speak of "row `512·si + p`" or "feature `1024·s + j`" without carrying a bound proof through every sum,
  each array is also read at natural-number coordinates (`at1`, `at2`, `at3`): the array's entry when the
  coordinates are in range, zero otherwise. In range the two readings agree (`at*_fin`).
-/
import Idealize.ShloMosaic.PureOps.Ideal.Laws
import Idealize.ShloMosaic.Lib.ValueIdx
import Mathlib.Algebra.BigOperators.Fin
import Mathlib.Algebra.BigOperators.Intervals

noncomputable section

namespace Cert.Lora

open Idealize.ShloMosaic Idealize.ShloMosaic.ValueIdx

/-- The scale both programs multiply the low-rank term by: the float `2.0`, the same word on both sides. -/
abbrev scale : EReal := Ideal.ofBits .f32 0x40000000#32

/-! ## Arrays read at natural-number coordinates -/

/-- A rank-1 array at a natural coordinate: its entry in range, zero outside. -/
def at1 {n0 : ℕ} (v : (⟨1, ![n0]⟩ : Shape).Idx → EReal) (a : ℕ) : EReal :=
  if h : a < n0 then v (ix1 ⟨a, h⟩) else 0

/-- A rank-2 array at natural coordinates: its entry in range, zero outside. -/
def at2 {n0 n1 : ℕ} (v : (⟨2, ![n0, n1]⟩ : Shape).Idx → EReal) (a b : ℕ) : EReal :=
  if h : a < n0 ∧ b < n1 then v (ix2 ⟨a, h.1⟩ ⟨b, h.2⟩) else 0

/-- A rank-3 array at natural coordinates: its entry in range, zero outside. -/
def at3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

theorem at1_lt {n0 : ℕ} (v : (⟨1, ![n0]⟩ : Shape).Idx → EReal) {a : ℕ} (ha : a < n0) :
    at1 v a = v (ix1 ⟨a, ha⟩) := dif_pos ha

theorem at2_lt {n0 n1 : ℕ} (v : (⟨2, ![n0, n1]⟩ : Shape).Idx → EReal) {a b : ℕ} (ha : a < n0) (hb : b < n1) :
    at2 v a b = v (ix2 ⟨a, ha⟩ ⟨b, hb⟩) := dif_pos ⟨ha, hb⟩

theorem at3_lt {n0 n1 n2 : ℕ} (v : (⟨3, ![n0, n1, n2]⟩ : Shape).Idx → EReal) {a b c : ℕ}
    (ha : a < n0) (hb : b < n1) (hc : c < n2) :
    at3 v a b c = v (ix3 ⟨a, ha⟩ ⟨b, hb⟩ ⟨c, hc⟩) := dif_pos ⟨ha, hb, hc⟩

theorem at1_fin {n0 : ℕ} (v : (⟨1, ![n0]⟩ : Shape).Idx → EReal) (a : Fin n0) : at1 v a.val = v (ix1 a) :=
  at1_lt v a.isLt

theorem at2_fin {n0 n1 : ℕ} (v : (⟨2, ![n0, n1]⟩ : Shape).Idx → EReal) (a : Fin n0) (b : Fin n1) :
    at2 v a.val b.val = v (ix2 a b) := at2_lt v a.isLt b.isLt

theorem at3_fin {n0 n1 n2 : ℕ} (v : (⟨3, ![n0, n1, n2]⟩ : Shape).Idx → EReal) (a : Fin n0) (b : Fin n1) (c : Fin n2) :
    at3 v a.val b.val c.val = v (ix3 a b c) := at3_lt v a.isLt b.isLt c.isLt

/-! ## The specification -/

/-- The layer at token `(b, s)` and output feature `o`, over natural coordinates. -/
def layer (x : (⟨3, ![4, 2048, 4096]⟩ : Shape).Idx → EReal) (w : (⟨2, ![4096, 4096]⟩ : Shape).Idx → EReal)
    (bias : (⟨1, ![4096]⟩ : Shape).Idx → EReal) (a : (⟨3, ![4, 4096, 16]⟩ : Shape).Idx → EReal)
    (bm : (⟨3, ![4, 16, 4096]⟩ : Shape).Idx → EReal) (b s o : ℕ) : EReal :=
  ((∑ k : Fin 4096, at3 x b s k.val * at2 w o k.val) + at1 bias o)
    + (∑ r : Fin 16, (∑ k : Fin 4096, at3 x b s k.val * at3 a b k.val r.val) * at3 bm b r.val o) * scale

/-- THE SPECIFICATION: the whole result array as one function of the five argument arrays. -/
def G (x : (⟨3, ![4, 2048, 4096]⟩ : Shape).Idx → EReal) (w : (⟨2, ![4096, 4096]⟩ : Shape).Idx → EReal)
    (bias : (⟨1, ![4096]⟩ : Shape).Idx → EReal) (a : (⟨3, ![4, 4096, 16]⟩ : Shape).Idx → EReal)
    (bm : (⟨3, ![4, 16, 4096]⟩ : Shape).Idx → EReal) : (⟨3, ![4, 2048, 4096]⟩ : Shape).Idx → EReal :=
  fun i => layer x w bias a bm (i 0).val (i 1).val (i 2).val

/-! ## A sum over consecutive runs is the sum over the whole range -/

/-- `n` runs of `J` consecutive indices, summed run by run, are the indices below `n·J` summed once. -/
theorem sum_runs {M : Type*} [AddCommMonoid M] (f : ℕ → M) (J : ℕ) :
    ∀ n : ℕ, ∑ s ∈ Finset.range n, ∑ j : Fin J, f (s * J + j.val) = ∑ k ∈ Finset.range (n * J), f k
  | 0 => by simp
  | n + 1 => by
    rw [Finset.sum_range_succ, sum_runs f J n, Nat.succ_mul, Finset.sum_range_add,
      Fin.sum_univ_eq_sum_range (fun j => f (n * J + j)) J]

/-- Four runs of 1024 are the 4096 input features. -/
theorem sum_four_runs {M : Type*} [AddCommMonoid M] (f : ℕ → M) :
    ∑ s ∈ Finset.range 4, ∑ j : Fin 1024, f (s * 1024 + j.val) = ∑ k : Fin 4096, f k.val := by
  rw [sum_runs f 1024 4, Fin.sum_univ_eq_sum_range f 4096]

end Cert.Lora

end
-- ==== Proof.Payload.lean ====
/-
  The kernel body's arithmetic, entry by entry, at the ideal values.

  One grid step holds a `512 × 1024` block of `x` (rows `p`, input features `j` of this step's run of 1024), a
  `1024 × 1024` block of `w` (output features `q` by the same input features), a `1024 × 16` block of `a`, a
  `16 × 1024` block of `bm` and 1024 bias entries. With no rounding left:

    * the base accumulator gains, at `(p, q)`, the sum over `j` of `x[p, j] · w[q, j]`;
    * the low-rank accumulator gains, at `(p, r)`, the sum over `j` of `x[p, j] · a[j, r]`;
    * the output block at `(p, q)` is `(base[p, q] + bias[q]) + (Σ_r low[p, r] · bm[r, q]) · 2`;
    * the two reset stores write zero.

  The narrowing of the low-rank accumulator to the product's input format is the identity at these values, and the
  casts between `[1, a, b]` and `[a, b]` only drop or add a coordinate that is always zero.
-/
import proofs.«113641_j64183991271648_1_alg».proof.Proof.Gen.KernelIdeal.Skeleton
import proofs.«113641_j64183991271648_1_alg».proof.Proof.LibDot
import proofs.«113641_j64183991271648_1_alg».proof.Proof.LibDotT
import proofs.«113641_j64183991271648_1_alg».proof.Proof.Spec
import Idealize.ShloMosaic.Lib.Pipeline.Value
import Idealize.ShloMosaic.Lib.ValueLayout

noncomputable section

namespace Cert.Lora.Kernel

open Cert.KernelIdeal Cert.KernelIdeal.Gen Idealize.ShloMosaic Idealize.ShloMosaic.ValueIdx

/-- The base product's dimension record: rows by input features against output features by input features. -/
theorem dims_base : dot_S512x1024_S1024x1024_S512x1024_1_1_0_0_n_n = DotDims.transposedRhs 512 1024 1024 := rfl
/-- The down-projection's record: a plain `512 × 1024` by `1024 × 16` product. -/
theorem dims_down : dot_S512x1024_S1024x16_S512x16_1_0_0_1_n_n = DotDims.plain 512 1024 16 := rfl
/-- The up-projection's record: a plain `512 × 16` by `16 × 1024` product. -/
theorem dims_up : dot_S512x16_S16x1024_S512x1024_1_0_0_1_n_n = DotDims.plain 512 16 1024 := rfl

/-- The reset of the base accumulator stores zero everywhere. -/
theorem reset_base_apply (j : S512x1024.Idx) : k0_pay1 (F := Ideal) j = 0 := by
  unfold k0_pay1
  rw [shapeCast_self]
  exact Ideal.ofBits_zero_f32

/-- The reset of the low-rank accumulator stores zero everywhere. -/
theorem reset_low_apply (j : S512x16.Idx) : k0_pay2 (F := Ideal) j = 0 := by
  unfold k0_pay2
  rw [shapeCast_self]
  exact Ideal.ofBits_zero_f32

/-- One step's update of the base accumulator at `(p, q)`: what it held plus `Σ_j x[p, j] · w[q, j]` over this step's
    1024 input features. -/
theorem base_step_apply (x0 : Vec Ideal S1x512x1024 .bf16) (x1 : Vec Ideal S1024x1024 .bf16) (acc : Vec Ideal S512x1024 .f32)
    (p : Fin 512) (q : Fin 1024) :
    k0_pay4 x0 x1 acc (ix2 p q) = acc (ix2 p q) + ∑ j : Fin 1024, x0 (ix3 (0 : Fin 1) p j) * x1 (ix2 q j) := by
  unfold k0_pay4 k0_pay3
  rw [shapeCast_self, shapeCast_self, dims_base]
  refine congrArg (acc (ix2 p q) + ·) ?_
  refine (Cert.DotT.matmul_zero_apply (φ₁ := .bf16) (φ₂ := .bf16) none _ _ p q).trans ?_
  refine Finset.sum_congr rfl fun j _ => ?_
  rw [shapeCast_1ab_ab_apply]

/-- One step's update of the low-rank accumulator at `(p, r)`: what it held plus `Σ_j x[p, j] · a[j, r]`. -/
theorem low_step_apply (x0 : Vec Ideal S1x512x1024 .bf16) (x3 : Vec Ideal S1x1024x16 .bf16) (acc : Vec Ideal S512x16 .f32)
    (p : Fin 512) (r : Fin 16) :
    k0_pay5 x0 x3 acc (ix2 p r) = acc (ix2 p r) + ∑ j : Fin 1024, x0 (ix3 (0 : Fin 1) p j) * x3 (ix3 (0 : Fin 1) j r) := by
  unfold k0_pay5 k0_pay3
  rw [shapeCast_self, dims_down]
  refine congrArg (acc (ix2 p r) + ·) ?_
  refine (Cert.GNN.matmul_plain_zero_apply (φ₁ := .bf16) (φ₂ := .bf16) none _ _ p r).trans ?_
  refine Finset.sum_congr rfl fun j _ => ?_
  rw [shapeCast_1ab_ab_apply, shapeCast_1ab_ab_apply]

/-- The output block at `(p, q)`, from the two accumulators, the bias block and the `bm` block. -/
theorem out_apply (x4 : Vec Ideal S1x16x1024 .bf16) (low : Vec Ideal S512x16 .f32) (base : Vec Ideal S512x1024 .f32)
    (bb : Vec Ideal S1024 .f32) (u : Fin 1) (p : Fin 512) (q : Fin 1024) :
    k0_pay6 x4 low base bb (ix3 u p q)
      = (base (ix2 p q) + bb (ix1 q)) + (∑ r : Fin 16, low (ix2 p r) * x4 (ix3 (0 : Fin 1) r q)) * Cert.Lora.scale := by
  unfold k0_pay6
  rw [shapeCast_ab_1ab_apply, dims_up]
  refine congrArg₂ (· + ·) (congrArg (base (ix2 p q) + ·) ?_) (congrArg (· * Cert.Lora.scale) ?_)
  · rw [broadcastTo_1b_ab_apply, shapeCast_a_1a_apply]
  · refine (Cert.GNN.matmul_plain_zero_apply (φ₁ := .bf16) (φ₂ := .bf16) none _ _ p q).trans ?_
    refine Finset.sum_congr rfl fun r _ => ?_
    rw [shapeCast_1ab_ab_apply]
    rfl

end Cert.Lora.Kernel

end
-- ==== Proof.Blocks.lean ====
/-
  Where each grid step's blocks sit in the arrays.

  The grid is `4 × 4 × 4 × 4`: batch entry `b`, row tile `si` (512 tokens), output tile `oi` (1024 output features)
  and, innermost, the run `ki` of 1024 input features. Step number `t` counts them in that order, so `ki = t % 4` and
  the first three coordinates are the digits of the GROUP `g = t / 4` in base 4: `b = g / 16`, `si = g / 4 % 4`,
  `oi = g % 4`. The four steps of a group share their tokens and output features and walk through the input features.

  At step `t` the kernel holds:  `x[b, 512·si + p, 1024·ki + j]`,  `w[1024·oi + q, 1024·ki + j]`,
  `bias[1024·oi + q]`,  `a[b, 1024·ki + j, r]`,  `bm[b, r, 1024·oi + q]`.
  The arrays the kernel is launched on are the arguments narrowed to the product's input format before the call;
  at the ideal values that narrowing changes nothing.
-/
import proofs.«113641_j64183991271648_1_alg».proof.Proof.Gen.KernelIdeal.Value
import proofs.«113641_j64183991271648_1_alg».proof.Proof.Spec
import Idealize.ShloMosaic.Lib.StableHlo.Run

noncomputable section

namespace Cert.Lora.Kernel

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-! ## The arrays as the kernel finds them, and each step's blocks, at their literal types -/

abbrev xarr (c : Dev nD) : Vec Ideal S4x2048x4096 .bf16 := V m c main_v0
abbrev warr (c : Dev nD) : Vec Ideal S4096x4096 .bf16 := V m c main_v1
abbrev barr (c : Dev nD) : Vec Ideal S4096 .f32 := V m c main_arg2
abbrev aarr (c : Dev nD) : Vec Ideal S4x4096x16 .bf16 := V m c main_v2
abbrev marr (c : Dev nD) : Vec Ideal S4x16x4096 .bf16 := V m c main_v3

abbrev xblk (c : Dev nD) (t : Fin cfg0.N) : Vec Ideal S1x512x1024 .bf16 := iblk m c 0 t
abbrev wblk (c : Dev nD) (t : Fin cfg0.N) : Vec Ideal S1024x1024 .bf16 := iblk m c 1 t
abbrev bblk (c : Dev nD) (t : Fin cfg0.N) : Vec Ideal S1024 .f32 := iblk m c 2 t
abbrev ablk (c : Dev nD) (t : Fin cfg0.N) : Vec Ideal S1x1024x16 .bf16 := iblk m c 3 t
abbrev mblk (c : Dev nD) (t : Fin cfg0.N) : Vec Ideal S1x16x1024 .bf16 := iblk m c 4 t

/-! ## The narrowing before the call is the identity at the ideal values -/

theorem xarr_eq (c : Dev nD) : (xarr m c : S4x2048x4096.Idx → EReal) = m ((c : Thread nD τ).loc main_arg0) := by
  dsimp only [xarr, Gen.V, Gen.hostOps0]; after_results; rfl
theorem warr_eq (c : Dev nD) : (warr m c : S4096x4096.Idx → EReal) = m ((c : Thread nD τ).loc main_arg1) := by
  dsimp only [warr, Gen.V, Gen.hostOps0]; after_results; rfl
theorem barr_eq (c : Dev nD) : (barr m c : S4096.Idx → EReal) = m ((c : Thread nD τ).loc main_arg2) :=
  V_main_arg2 m c
theorem aarr_eq (c : Dev nD) : (aarr m c : S4x4096x16.Idx → EReal) = m ((c : Thread nD τ).loc main_arg3) := by
  dsimp only [aarr, Gen.V, Gen.hostOps0]; after_results; rfl
theorem marr_eq (c : Dev nD) : (marr m c : S4x16x4096.Idx → EReal) = m ((c : Thread nD τ).loc main_arg4) := by
  dsimp only [marr, Gen.V, Gen.hostOps0]; after_results; rfl

/-! ## The index maps, decided once over the 256 steps -/

theorem idx_x : ∀ t : Fin cfg0.N, win0_0.index t (0 : Fin 3) = t.val / 4 / 16 ∧ win0_0.index t (1 : Fin 3) = t.val / 4 / 4 % 4
    ∧ win0_0.index t (2 : Fin 3) = t.val % 4 :=
  (by decide +kernel : ∀ t : Fin grid0.N, _)
theorem idx_w : ∀ t : Fin cfg0.N, win0_1.index t (0 : Fin 2) = t.val / 4 % 4 ∧ win0_1.index t (1 : Fin 2) = t.val % 4 :=
  (by decide +kernel : ∀ t : Fin grid0.N, _)
theorem idx_b : ∀ t : Fin cfg0.N, win0_2.index t (0 : Fin 1) = t.val / 4 % 4 :=
  (by decide +kernel : ∀ t : Fin grid0.N, _)
theorem idx_a : ∀ t : Fin cfg0.N, win0_3.index t (0 : Fin 3) = t.val / 4 / 16 ∧ win0_3.index t (1 : Fin 3) = t.val % 4
    ∧ win0_3.index t (2 : Fin 3) = 0 :=
  (by decide +kernel : ∀ t : Fin grid0.N, _)
theorem idx_m : ∀ t : Fin cfg0.N, win0_4.index t (0 : Fin 3) = t.val / 4 / 16 ∧ win0_4.index t (1 : Fin 3) = 0
    ∧ win0_4.index t (2 : Fin 3) = t.val / 4 % 4 :=
  (by decide +kernel : ∀ t : Fin grid0.N, _)
theorem idx_o : ∀ t : Fin cfg0.N, win0_5.index t (0 : Fin 3) = t.val / 4 / 16 ∧ win0_5.index t (1 : Fin 3) = t.val / 4 / 4 % 4
    ∧ win0_5.index t (2 : Fin 3) = t.val / 4 % 4 :=
  (by decide +kernel : ∀ t : Fin grid0.N, _)

/-! ## Each block entry is an array entry -/

theorem xblk_apply (c : Dev nD) (t : Fin cfg0.N) (u : Fin 1) (p : Fin 512) (j : Fin 1024) :
    xblk m c t (ix3 u p j) = at3 (xarr m c) (t.val / 4 / 16) (t.val / 4 / 4 % 4 * 512 + p.val) (t.val % 4 * 1024 + j.val) := by
  have hN : t.val < 256 := lt_of_lt_of_eq t.isLt N_0
  obtain ⟨e0, e1, e2⟩ := idx_x t
  rw [at3_lt (xarr m c) (a := t.val / 4 / 16) (b := t.val / 4 / 4 % 4 * 512 + p.val) (c := t.val % 4 * 1024 + j.val)
    (by omega) (by omega) (by omega)]
  show V m c main_v0 (((cfg0.win 0).blk t).view.emb (ix3 u p j)) = V m c main_v0 _
  refine congrArg (V m c main_v0) ?_
  funext a; apply Fin.ext
  match a with
  | ⟨0, _⟩ => show win0_0.index t (0 : Fin 3) * 1 + 1 * u.val = t.val / 4 / 16; omega
  | ⟨1, _⟩ => show win0_0.index t (1 : Fin 3) * 512 + 1 * p.val = t.val / 4 / 4 % 4 * 512 + p.val; omega
  | ⟨2, _⟩ => show win0_0.index t (2 : Fin 3) * 1024 + 1 * j.val = t.val % 4 * 1024 + j.val; omega

theorem wblk_apply (c : Dev nD) (t : Fin cfg0.N) (q : Fin 1024) (j : Fin 1024) :
    wblk m c t (ix2 q j) = at2 (warr m c) (t.val / 4 % 4 * 1024 + q.val) (t.val % 4 * 1024 + j.val) := by
  have hN : t.val < 256 := lt_of_lt_of_eq t.isLt N_0
  obtain ⟨e0, e1⟩ := idx_w t
  rw [at2_lt (warr m c) (a := t.val / 4 % 4 * 1024 + q.val) (b := t.val % 4 * 1024 + j.val) (by omega) (by omega)]
  show V m c main_v1 (((cfg0.win 1).blk t).view.emb (ix2 q j)) = V m c main_v1 _
  refine congrArg (V m c main_v1) ?_
  funext a; apply Fin.ext
  match a with
  | ⟨0, _⟩ => show win0_1.index t (0 : Fin 2) * 1024 + 1 * q.val = t.val / 4 % 4 * 1024 + q.val; omega
  | ⟨1, _⟩ => show win0_1.index t (1 : Fin 2) * 1024 + 1 * j.val = t.val % 4 * 1024 + j.val; omega

theorem bblk_apply (c : Dev nD) (t : Fin cfg0.N) (q : Fin 1024) :
    bblk m c t (ix1 q) = at1 (barr m c) (t.val / 4 % 4 * 1024 + q.val) := by
  have hN : t.val < 256 := lt_of_lt_of_eq t.isLt N_0
  have e0 := idx_b t
  rw [at1_lt (barr m c) (a := t.val / 4 % 4 * 1024 + q.val) (by omega)]
  show V m c main_arg2 (((cfg0.win 2).blk t).view.emb (ix1 q)) = V m c main_arg2 _
  refine congrArg (V m c main_arg2) ?_
  funext a; apply Fin.ext
  match a with
  | ⟨0, _⟩ => show win0_2.index t (0 : Fin 1) * 1024 + 1 * q.val = t.val / 4 % 4 * 1024 + q.val; omega

theorem ablk_apply (c : Dev nD) (t : Fin cfg0.N) (u : Fin 1) (j : Fin 1024) (r : Fin 16) :
    ablk m c t (ix3 u j r) = at3 (aarr m c) (t.val / 4 / 16) (t.val % 4 * 1024 + j.val) r.val := by
  have hN : t.val < 256 := lt_of_lt_of_eq t.isLt N_0
  obtain ⟨e0, e1, e2⟩ := idx_a t
  rw [at3_lt (aarr m c) (a := t.val / 4 / 16) (b := t.val % 4 * 1024 + j.val) (c := r.val) (by omega) (by omega) r.isLt]
  show V m c main_v2 (((cfg0.win 3).blk t).view.emb (ix3 u j r)) = V m c main_v2 _
  refine congrArg (V m c main_v2) ?_
  funext a; apply Fin.ext
  match a with
  | ⟨0, _⟩ => show win0_3.index t (0 : Fin 3) * 1 + 1 * u.val = t.val / 4 / 16; omega
  | ⟨1, _⟩ => show win0_3.index t (1 : Fin 3) * 1024 + 1 * j.val = t.val % 4 * 1024 + j.val; omega
  | ⟨2, _⟩ => show win0_3.index t (2 : Fin 3) * 16 + 1 * r.val = r.val; omega

theorem mblk_apply (c : Dev nD) (t : Fin cfg0.N) (u : Fin 1) (r : Fin 16) (q : Fin 1024) :
    mblk m c t (ix3 u r q) = at3 (marr m c) (t.val / 4 / 16) r.val (t.val / 4 % 4 * 1024 + q.val) := by
  have hN : t.val < 256 := lt_of_lt_of_eq t.isLt N_0
  obtain ⟨e0, e1, e2⟩ := idx_m t
  rw [at3_lt (marr m c) (a := t.val / 4 / 16) (b := r.val) (c := t.val / 4 % 4 * 1024 + q.val) (by omega) r.isLt (by omega)]
  show V m c main_v3 (((cfg0.win 4).blk t).view.emb (ix3 u r q)) = V m c main_v3 _
  refine congrArg (V m c main_v3) ?_
  funext a; apply Fin.ext
  match a with
  | ⟨0, _⟩ => show win0_4.index t (0 : Fin 3) * 1 + 1 * u.val = t.val / 4 / 16; omega
  | ⟨1, _⟩ => show win0_4.index t (1 : Fin 3) * 16 + 1 * r.val = r.val; omega
  | ⟨2, _⟩ => show win0_4.index t (2 : Fin 3) * 1024 + 1 * q.val = t.val / 4 % 4 * 1024 + q.val; omega

end Cert.Lora.Kernel

end
-- ==== Proof.Invariant.lean ====
/-
  What the two accumulators hold after every grid step, and what the last step of a group writes.

  Within a group `g` of four steps the accumulators start over at the first step and gain one run's partial product
  per step. Writing, for run `s` of the input features,

      baseRun g s p q = Σ_j x[b, 512·si + p, 1024·s + j] · w[1024·oi + q, 1024·s + j]
      lowRun  g s p r = Σ_j x[b, 512·si + p, 1024·s + j] · a[b, 1024·s + j, r]

  (`b, si, oi` the digits of `g`), after step `n` — which is step `n % 4` of group `n / 4` — the base accumulator
  holds `Σ_{s ≤ n % 4} baseRun (n / 4) s` and the low-rank one `Σ_{s ≤ n % 4} lowRun (n / 4) s`: by induction on the step,
  the first step of a group giving `0 +` its own run and every later step adding its run to what the step before
  left. At the last step of a group the sums run over all four runs, that is over all 4096 input features
  (`sum_four_runs`), and the block written is the specification's `layer` at this group's tokens and output
  features.
-/
import proofs.«113641_j64183991271648_1_alg».proof.Proof.Pieces
import proofs.«113641_j64183991271648_1_alg».proof.Proof.Payload
import proofs.«113641_j64183991271648_1_alg».proof.Proof.Blocks

noncomputable section

namespace Cert.Lora.Kernel

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-! ## Each step's accumulators in terms of the step before -/

/-- First step of a group: both accumulators are this step's product added to the zeros just stored. -/
theorem step_first (c : Dev nD) (t : Fin cfg0.N) (h0 : t.val % 4 = 0) (h1 : ¬t.val % 4 = 3) :
    (outsAt0 m c t.val t.isLt).2.1 = k0_pay4 (xblk m c t) (wblk m c t) (k0_pay1 (F := Ideal))
    ∧ (outsAt0 m c t.val t.isLt).2.2 = k0_pay5 (xblk m c t) (ablk m c t) (k0_pay2 (F := Ideal)) := by
  rw [outsAt0_A m c t h0 h1]
  dsimp only
  exact ⟨base_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    low_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- A middle step: this step's products added to what the step before left. -/
theorem step_mid (c : Dev nD) (t : Fin cfg0.N) (h0 : ¬t.val % 4 = 0) (h1 : ¬t.val % 4 = 3) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (ablk m c t) (outsAt0 m c (t.val - 1) (Nat.lt_of_le_of_lt (Nat.sub_le _ _) t.isLt)).2.2 := by
  rw [outsAt0_B m c t h0 h1]
  dsimp only
  exact ⟨base_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    low_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last step of a group: the accumulators as at a middle step, and the output block from them as updated. -/
theorem step_last (c : Dev nD) (t : Fin cfg0.N) (h0 : ¬t.val % 4 = 0) (h1 : t.val % 4 = 3) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (ablk m c t) (outsAt0 m c (t.val - 1) (Nat.lt_of_le_of_lt (Nat.sub_le _ _) t.isLt)).2.2
    ∧ (outsAt0 m c t.val t.isLt).1 = k0_pay6 (mblk m c t) (k0_pay5 (xblk m c t) (ablk m c t) (outsAt0 m c (t.val - 1) (Nat.lt_of_le_of_lt (Nat.sub_le _ _) t.isLt)).2.2)
        (k0_pay4 (xblk m c t) (wblk m c t) (outsAt0 m c (t.val - 1) (Nat.lt_of_le_of_lt (Nat.sub_le _ _) t.isLt)).2.1) (bblk m c t) := by
  rw [outsAt0_C m c t h0 h1]
  dsimp only
  exact ⟨base_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    low_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- Any step but a group's first adds its products to what the step before left. -/
theorem step_later (c : Dev nD) (t : Fin cfg0.N) (h0 : ¬t.val % 4 = 0) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (ablk m c t) (outsAt0 m c (t.val - 1) (Nat.lt_of_le_of_lt (Nat.sub_le _ _) t.isLt)).2.2 := by
  by_cases h1 : t.val % 4 = 3
  · exact ⟨(step_last m c t h0 h1).1, (step_last m c t h0 h1).2.1⟩
  · exact step_mid m c t h0 h1

/-! ## One run's partial products, over the arrays -/

/-- Run `s`'s share of `x · wᵀ` at row `p`, column `q` of group `g`'s tile. -/
def baseRun (c : Dev nD) (g s : ℕ) (p : Fin 512) (q : Fin 1024) : EReal :=
  ∑ j : Fin 1024, at3 (xarr m c) (g / 16) (g / 4 % 4 * 512 + p.val) (s * 1024 + j.val)
    * at2 (warr m c) (g % 4 * 1024 + q.val) (s * 1024 + j.val)

/-- Run `s`'s share of `x · a` at row `p`, rank index `r` of group `g`'s tile. -/
def lowRun (c : Dev nD) (g s : ℕ) (p : Fin 512) (r : Fin 16) : EReal :=
  ∑ j : Fin 1024, at3 (xarr m c) (g / 16) (g / 4 % 4 * 512 + p.val) (s * 1024 + j.val)
    * at3 (aarr m c) (g / 16) (s * 1024 + j.val) r.val

/-- At step `t` the base accumulator gains run `t % 4` of group `t / 4`. -/
theorem base_gain (c : Dev nD) (t : Fin cfg0.N) (acc : Vec Ideal S512x1024 .f32) (p : Fin 512) (q : Fin 1024) :
    k0_pay4 (xblk m c t) (wblk m c t) acc (ix2 p q) = acc (ix2 p q) + baseRun m c (t.val / 4) (t.val % 4) p q := by
  rw [base_step_apply]
  unfold baseRun
  refine congrArg (acc (ix2 p q) + ·) (Finset.sum_congr rfl fun j _ => ?_)
  rw [xblk_apply, wblk_apply]

/-- At step `t` the low-rank accumulator gains run `t % 4` of group `t / 4`. -/
theorem low_gain (c : Dev nD) (t : Fin cfg0.N) (acc : Vec Ideal S512x16 .f32) (p : Fin 512) (r : Fin 16) :
    k0_pay5 (xblk m c t) (ablk m c t) acc (ix2 p r) = acc (ix2 p r) + lowRun m c (t.val / 4) (t.val % 4) p r := by
  rw [low_step_apply]
  unfold lowRun
  refine congrArg (acc (ix2 p r) + ·) (Finset.sum_congr rfl fun j _ => ?_)
  rw [xblk_apply, ablk_apply]

/-! ## The accumulators after every step -/

/-- After a group's first step each accumulator holds exactly that step's run. -/
theorem acc_first (c : Dev nD) (t : Fin cfg0.N) (h0 : t.val % 4 = 0) :
    (∀ (p : Fin 512) (q : Fin 1024), (outsAt0 m c t.val t.isLt).2.1 (ix2 p q)
        = ∑ s ∈ Finset.range (t.val % 4 + 1), baseRun m c (t.val / 4) s p q)
    ∧ (∀ (p : Fin 512) (r : Fin 16), (outsAt0 m c t.val t.isLt).2.2 (ix2 p r)
        = ∑ s ∈ Finset.range (t.val % 4 + 1), lowRun m c (t.val / 4) s p r) := by
  obtain ⟨eB, eL⟩ := step_first m c t h0 (by omega)
  constructor
  · intro p q
    rw [eB, base_gain, reset_base_apply, zero_add, h0, Nat.zero_add, Finset.sum_range_one]
  · intro p r
    rw [eL, low_gain, reset_low_apply, zero_add, h0, Nat.zero_add, Finset.sum_range_one]

/-- THE INVARIANT: after step `n` the accumulators hold the runs `0 … n % 4` of group `n / 4`, summed. -/
theorem acc_eq (c : Dev nD) : ∀ (n : ℕ) (h : n < cfg0.N),
    (∀ (p : Fin 512) (q : Fin 1024), (outsAt0 m c n h).2.1 (ix2 p q)
        = ∑ s ∈ Finset.range (n % 4 + 1), baseRun m c (n / 4) s p q)
    ∧ (∀ (p : Fin 512) (r : Fin 16), (outsAt0 m c n h).2.2 (ix2 p r)
        = ∑ s ∈ Finset.range (n % 4 + 1), lowRun m c (n / 4) s p r)
  | 0, h => acc_first m c ⟨0, h⟩ rfl
  | n + 1, h => by
    by_cases h0 : (n + 1) % 4 = 0
    · exact acc_first m c ⟨n + 1, h⟩ h0
    · have ih := acc_eq c n (Nat.lt_of_succ_lt h)
      obtain ⟨eB, eL⟩ := step_later m c ⟨n + 1, h⟩ h0
      have hg : (n + 1) / 4 = n / 4 := by omega
      have hk : (n + 1) % 4 = n % 4 + 1 := by omega
      constructor
      · intro p q
        refine (congrFun eB (ix2 p q)).trans ?_
        rw [base_gain]
        show (outsAt0 m c n _).2.1 (ix2 p q) + baseRun m c ((n + 1) / 4) ((n + 1) % 4) p q = _
        rw [ih.1 p q, hg, hk, Finset.sum_range_succ _ (n % 4 + 1)]
      · intro p r
        refine (congrFun eL (ix2 p r)).trans ?_
        rw [low_gain]
        show (outsAt0 m c n _).2.2 (ix2 p r) + lowRun m c ((n + 1) / 4) ((n + 1) % 4) p r = _
        rw [ih.2 p r, hg, hk, Finset.sum_range_succ _ (n % 4 + 1)]

/-! ## What the last step of a group writes -/

/-- THE OUTPUT BLOCK: at a group's last step, entry `(p, q)` of the block is the specification's layer at token
    `(b, 512·si + p)` and output feature `1024·oi + q`. -/
theorem out_eq (c : Dev nD) (t : Fin cfg0.N) (h3 : t.val % 4 = 3) (u : Fin 1) (p : Fin 512) (q : Fin 1024) :
    (outsAt0 m c t.val t.isLt).1 (ix3 u p q)
      = layer (xarr m c) (warr m c) (barr m c) (aarr m c) (marr m c)
          (t.val / 4 / 16) (t.val / 4 / 4 % 4 * 512 + p.val) (t.val / 4 % 4 * 1024 + q.val) := by
  obtain ⟨eB, eL, eO⟩ := step_last m c t (by omega) h3
  obtain ⟨iB, iL⟩ := acc_eq m c t.val t.isLt
  rw [eO, ← eL, ← eB, out_apply, iB p q, bblk_apply]
  simp only [iL, mblk_apply]
  rw [show t.val % 4 + 1 = 4 by omega]
  unfold layer baseRun lowRun
  rw [sum_four_runs (fun k => at3 (xarr m c) (t.val / 4 / 16) (t.val / 4 / 4 % 4 * 512 + p.val) k
      * at2 (warr m c) (t.val / 4 % 4 * 1024 + q.val) k)]
  refine congrArg (_ + ·) (congrArg (· * scale) (Finset.sum_congr rfl fun r _ => ?_))
  rw [sum_four_runs (fun k => at3 (xarr m c) (t.val / 4 / 16) (t.val / 4 / 4 % 4 * 512 + p.val) k
      * at3 (aarr m c) (t.val / 4 / 16) k r.val)]

end Cert.Lora.Kernel

end
-- ==== Proof.KernelValue.lean ====
/-
  The kernel's result array is the specification of its arguments.

  Only the last step of each group writes its output block back, and what it writes is, entry by entry, the
  specification at the tokens and output features that block occupies in the result array (`out_eq`): block
  `(b, si, oi)` holds rows `512·si … 512·si + 511` of batch entry `b` and columns `1024·oi … 1024·oi + 1023`. The 64
  groups' blocks tile the `4 × 2048 × 4096` result, so after the run the whole array is `G` of the arrays the kernel
  was launched on — which, at the ideal values, are the program's five arguments themselves.
-/
import proofs.«113641_j64183991271648_1_alg».proof.Proof.Invariant

noncomputable section

namespace Cert.Lora.Kernel

open Cert.KernelIdeal Cert.KernelIdeal.Gen Idealize.ShloMosaic Idealize.ShloMosaic.TcCoe Idealize.SL.Sem
open Idealize.ShloMosaic.ValueIdx Cert.Lora
open Idealize.ShloMosaic.Pipeline (Dat)

variable (m : (ℓ : Loc nD τ sig) → Buf (Elt Ideal) ℓ) (ρ : Dev nD → PrngReg)

/-- The specification at the arrays the kernel is launched on. -/
abbrev result (c : Dev nD) : S4x2048x4096.Idx → EReal :=
  G (xarr m c) (warr m c) (barr m c) (aarr m c) (marr m c)

/-- The specification at an array index whose three coordinates are known. -/
theorem result_at (c : Dev nD) (i : S4x2048x4096.Idx) (b s o : ℕ) (h0 : (i 0).val = b) (h1 : (i 1).val = s) (h2 : (i 2).val = o) :
    result m c i = layer (xarr m c) (warr m c) (barr m c) (aarr m c) (marr m c) b s o := by
  show layer _ _ _ _ _ (i 0).val (i 1).val (i 2).val = _
  rw [h0, h1, h2]

/-- Entry `y` of the block a group's last step leaves is the specification at the array index the block puts `y` at. -/
theorem flushed_at (c : Dev nD) (t : Fin cfg0.N) (h3 : t.val % 4 = 3) (y : S1x512x1024.Idx) :
    (outsAt0 m c t.val t.isLt).1 y = result m c (((cfg0.win 5).blk t).view.emb y) := by
  obtain ⟨u, p, q, rfl⟩ : ∃ (u : Fin 1) (p : Fin 512) (q : Fin 1024), y = ix3 u p q := ⟨y 0, y 1, y 2, eq_ix3 y⟩
  have hN : t.val < 256 := lt_of_lt_of_eq t.isLt N_0
  obtain ⟨e0, e1, e2⟩ := idx_o t
  rw [out_eq m c t h3 u p q]
  refine (result_at m c _ _ _ _ ?_ ?_ ?_).symm
  · show win0_5.index t (0 : Fin 3) * 1 + 1 * u.val = t.val / 4 / 16; omega
  · show win0_5.index t (1 : Fin 3) * 512 + 1 * p.val = t.val / 4 / 4 % 4 * 512 + p.val; omega
  · show win0_5.index t (2 : Fin 3) * 1024 + 1 * q.val = t.val / 4 % 4 * 1024 + q.val; omega

/-- WHAT A WRITING STEP WRITES BACK is its block of the specification. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  rw [Cert.KernelIdeal.Value.flushed5 m c t]
  exact funext fun y => flushed_at m c t h3 y

/-- Every index of the result array lies in the block of its group's last step. -/
theorem covered (i : S4x2048x4096.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 4096 := (i 2).isLt
  obtain ⟨n, hn⟩ : ∃ n : ℕ, n = 4 * ((i 0).val * 16 + (i 1).val / 512 * 4 + (i 2).val / 1024) + 3 := ⟨_, rfl⟩
  have hlt : n < cfg0.N := by rw [show cfg0.N = 256 from N_0]; omega
  obtain ⟨e0, e1, e2⟩ := idx_o ⟨n, hlt⟩
  dsimp only at e0 e1 e2
  refine ⟨⟨n, hlt⟩, (flush0_5 ⟨n, hlt⟩).mpr (by show n % 4 = 3; omega), ?_⟩
  show i ∈ ((View.whole main_v4).slice (win0_5.rect ⟨n, hlt⟩)).set
  rw [View.set_slice_whole, Rect.mem_set_unit]
  intro a
  match a with
  | ⟨0, _⟩ => show win0_5.index ⟨n, hlt⟩ (0 : Fin 3) * 1 ≤ (i 0).val ∧ (i 0).val < win0_5.index ⟨n, hlt⟩ (0 : Fin 3) * 1 + 1; omega
  | ⟨1, _⟩ => show win0_5.index ⟨n, hlt⟩ (1 : Fin 3) * 512 ≤ (i 1).val ∧ (i 1).val < win0_5.index ⟨n, hlt⟩ (1 : Fin 3) * 512 + 512; omega
  | ⟨2, _⟩ => show win0_5.index ⟨n, hlt⟩ (2 : Fin 3) * 1024 ≤ (i 2).val ∧ (i 2).val < win0_5.index ⟨n, hlt⟩ (2 : Fin 3) * 1024 + 1024; omega

/-- THE RESULT ARRAY after the run: the specification at the arrays the kernel was launched on. -/
theorem final (c : Dev nD) : (dats m 0 c).arrAt 5 cfg0.N = result m c :=
  (dats m 0 c).arrAt_eq_of_cover 5 (result m c) (flushed_eq m c) covered

/-- THE RUN, READ: every weakly fair execution of the idealized kernel program ends with the result array at the
    specification of the five arguments, and the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      show G (xarr m c) (warr m c) (barr m c) (aarr m c) (marr m c) = _
      rw [xarr_eq, warr_eq, barr_eq, aarr_eq, marr_eq])), (h c).2⟩)
    (Cert.KernelIdeal.Value.run_blocks m ρ)

end Cert.Lora.Kernel

end
-- ==== Proof.RefValue.lean ====
/-
  The reference computes the specification.

  Its ten host operations are: the dense product `x · wᵀ` over the 4096 input features, the bias broadcast along
  batch and sequence, their sum; the batched product `x · a` into rank 16, the batched product of that with `bm`
  back to the output features, its multiple by the constant 2; and the sum of the two halves. Read at a token
  `(b, s)` and an output feature `o`, one operation at a time, that is `Cert.Lora.layer` word for word: each
  product is a sum over its one contracted axis, each broadcast reads its operand at the coordinates it keeps.
-/
import proofs.«113641_j64183991271648_1_alg».proof.Proof.Gen.ReferenceIdeal.Read
import proofs.«113641_j64183991271648_1_alg».proof.Proof.Spec

noncomputable section

namespace Cert.Lora.Reference

open Cert.ReferenceIdeal Cert.ReferenceIdeal.Read Idealize.ShloMosaic Idealize.ShloMosaic.ValueIdx

/-- The reference's result, as the generated stage `val_main_v8` states it, is `G` of the five arguments. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4x4096x16, .f32⟩ : BufTy).Contents (Elt Ideal))
    (x4 : (⟨S4x16x4096, .f32⟩ : BufTy).Contents (Elt Ideal)) :
    val_main_v8 (F := Ideal) x0 x1 x2 x3 x4 = Cert.Lora.G x0 x1 x2 x3 x4 := by
  funext i
  obtain ⟨b, s, o, rfl⟩ : ∃ (b : Fin 4) (s : Fin 2048) (o : Fin 4096), i = ix3 b s o := ⟨i 0, i 1, i 2, eq_ix3 i⟩
  -- the coordinates each operation reads its operands at, for this token and feature
  have dense_l : ∀ k : Fin 4096, lidx_main_v0 (ix3 b s o) k = ix3 b s k := fun k =>
    funext fun a => by match a with | ⟨0, _⟩ => rfl | ⟨1, _⟩ => rfl | ⟨2, _⟩ => rfl
  have dense_r : ∀ k : Fin 4096, ridx_main_v0 (ix3 b s o) k = ix2 o k := fun k =>
    funext fun a => by match a with | ⟨0, _⟩ => rfl | ⟨1, _⟩ => rfl
  have bias_at : idx_main_v1 (idx_main_v2 (ix3 b s o)) = ix1 o :=
    funext fun a => by match a with | ⟨0, _⟩ => rfl
  have up_l : ∀ r : Fin 16, lidx_main_v5 (ix3 b s o) r = ix3 b s r := fun r =>
    funext fun a => by match a with | ⟨0, _⟩ => rfl | ⟨1, _⟩ => rfl | ⟨2, _⟩ => rfl
  have up_r : ∀ r : Fin 16, ridx_main_v5 (ix3 b s o) r = ix3 b r o := fun r =>
    funext fun a => by match a with | ⟨0, _⟩ => rfl | ⟨1, _⟩ => rfl | ⟨2, _⟩ => rfl
  have down_l : ∀ (r : Fin 16) (k : Fin 4096), lidx_main_v4 (ix3 b s r) k = ix3 b s k := fun r k =>
    funext fun a => by match a with | ⟨0, _⟩ => rfl | ⟨1, _⟩ => rfl | ⟨2, _⟩ => rfl
  have down_r : ∀ (r : Fin 16) (k : Fin 4096), ridx_main_v4 (ix3 b s r) k = ix3 b k r := fun r k =>
    funext fun a => by match a with | ⟨0, _⟩ => rfl | ⟨1, _⟩ => rfl | ⟨2, _⟩ => rfl
  rw [val_main_v8_apply, val_main_v3_apply, val_main_v7_apply, val_main_v0_apply, val_main_v2_apply, val_main_v1_apply,
    val_main_v5_apply, val_main_v6_apply, val_main_cst_apply]
  simp only [dense_l, dense_r, bias_at, up_l, up_r, val_main_v4_apply, down_l, down_r]
  show _ = Cert.Lora.layer x0 x1 x2 x3 x4 b.val s.val o.val
  unfold Cert.Lora.layer
  simp only [Cert.Lora.at1_fin, Cert.Lora.at2_fin, Cert.Lora.at3_fin]
  rfl

end Cert.Lora.Reference

end
-- ==== Proof.lean ====
/-
  A dense layer with a per-batch low-rank correction, tiled for the matrix unit, against its plain reference.

  Both programs compute, for every token `(b, s)` and output feature `o`,

      (Σ_k x[b,s,k] · w[o,k] + bias[o]) + (Σ_r (Σ_k x[b,s,k] · a[b,k,r]) · bm[b,r,o]) · 2        (`Cert.Lora.G`).

  The reference does so with three whole contractions. The kernel walks a `4 × 4 × 4 × 4` grid — batch entry, 512-token
  tile, 1024-feature output tile and, innermost, four runs of 1024 input features — keeping two accumulators between
  the steps of a group: they start at zero on a group's first step, gain one run's partial products per step, and on
  the group's last step the output tile is formed from them, the bias and the `bm` tile, and written back. At the
  ideal values the narrowing of the operands to the matrix unit's input format is the identity, every block product
  is a plain sum, and summing four runs of 1024 indices is summing all 4096 — commutativity and associativity of
  addition only, so the precondition (finite inputs) is never opened.

  The modules: `Spec` (the function `G` and the four-runs law), `RefValue` (the reference's ten operations read at an
  index are `G`), `LibDot` / `LibDotT` (a block product at an entry), `Pieces` (what a grid step leaves, as the body's
  own arithmetic), `Payload` (that arithmetic entry by entry), `Blocks` (where a step's blocks sit in the arrays),
  `Invariant` (the accumulators after every step, by induction on the step; the tile a group writes), `KernelValue`
  (the tiles cover the result array, which therefore ends at `G`). Both frames of the kernel program and its run are
  the generated ones; the reference's frame is its generated run with the result dropped; the idealization rewrote no
  operation, so `preserves` is `True`.
-/
import proofs.«113641_j64183991271648_1_alg».proof.Defs
import proofs.«113641_j64183991271648_1_alg».proof.Proof.Gen.Kernel
import proofs.«113641_j64183991271648_1_alg».proof.Proof.Gen.Kernel.Skeleton
import proofs.«113641_j64183991271648_1_alg».proof.Proof.Gen.Kernel.Launch
import proofs.«113641_j64183991271648_1_alg».proof.Proof.Gen.Kernel.Points
import proofs.«113641_j64183991271648_1_alg».proof.Proof.Gen.Kernel.Frame
import proofs.«113641_j64183991271648_1_alg».proof.Proof.Gen.KernelIdeal
import proofs.«113641_j64183991271648_1_alg».proof.Proof.Gen.KernelIdeal.Skeleton
import proofs.«113641_j64183991271648_1_alg».proof.Proof.Gen.KernelIdeal.Launch
import proofs.«113641_j64183991271648_1_alg».proof.Proof.Gen.KernelIdeal.Points
import proofs.«113641_j64183991271648_1_alg».proof.Proof.Gen.KernelIdeal.Frame
import proofs.«113641_j64183991271648_1_alg».proof.Proof.Gen.ReferenceIdeal
import proofs.«113641_j64183991271648_1_alg».proof.Proof.Gen.Pre_finite_inputs
import proofs.«113641_j64183991271648_1_alg».proof.Proof.Gen.KernelIdeal.Value
import proofs.«113641_j64183991271648_1_alg».proof.Proof.Gen.ReferenceIdeal.Run
import proofs.«113641_j64183991271648_1_alg».proof.Proof.Gen.ReferenceIdeal.Read
import proofs.«113641_j64183991271648_1_alg».proof.Proof.KernelValue
import proofs.«113641_j64183991271648_1_alg».proof.Proof.RefValue
import Idealize.ShloMosaic.Adequacy
import Idealize.ShloMosaic.Init

noncomputable section

namespace Cert.Proof

open Idealize.ShloMosaic Idealize.SL.Sem

/-- The word-level kernel program runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the result array at `G` of those
    arguments: the kernel by its tiles (`Cert.Lora.Kernel.run`), the reference operation by operation
    (`Cert.Lora.Reference.result_eq`). -/
theorem algebraic : Cert.algebraic_KernelIdeal_ReferenceIdeal := by
  intro m ρ m' ρ' _ hagree
  refine ⟨_, Cert.Lora.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Lora.Reference.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
